-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000x128 : Shape := ⟨2, ![50000, 128]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x256 .f32) (main_arg1 : IVec S2x800000 32) (main_arg2 : FVec F S50000x128 .f32) (main_arg3 : FVec F S256x128 .f32) (main_arg4 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S50000x128 : Shape := ⟨2, ![50000, 128]⟩
abbrev S256x128 : Shape := ⟨2, ![256, 128]⟩
abbrev S128 : Shape := ⟨1, ![128]⟩
abbrev S5000x256 : Shape := ⟨2, ![5000, 256]⟩
abbrev S5000x128 : Shape := ⟨2, ![5000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 67
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000x128, .f32⟩
  | .hbm, ⟨3, _⟩ => ⟨S256x128, .f32⟩
  | .hbm, ⟨4, _⟩ => ⟨S128, .f32⟩
  | .hbm, ⟨5, _⟩ => ⟨S50000x128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  natLt_1_32 : 1 < 32
  dot_S5000x256_S256x128_S5000x128_1_0_0_1_n_n_wf : DotDims.WF S5000x256 S256x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000x128 : Shape := ⟨2, ![50000, 128]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000x128, .f32⟩
  | .hbm, ⟨3, _⟩ => ⟨S256x128, .f32⟩
  | .hbm, ⟨4, _⟩ => ⟨S128, .f32⟩
  | .hbm, ⟨5, _⟩ => ⟨S50000x128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .i1⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .i1⟩
  | .hbm, ⟨80, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The layer's mathematics, stated once over whole arrays.

  A graph-convolution step followed by a leaky integrate-and-fire update. With `h` the projected features (one row
  per node), `e` the edge list (row 0 the sources, row 1 the targets; every node also gets a loop to itself) and `b` the bias:

    deg[v]   = number of edges, loops included, whose target is v
    dinv[v]  = deg[v]^(-1/2) where deg[v] > 0, else 0
    cur[v,:] = b + Σ over edges (s → v) of dinv[s] · dinv[v] · h[s,:]

  (`aggregate`). With `mem` the membrane potentials the update is

    mem'[v,j] = 0.9 · mem[v,j] + cur[v,j] − [mem[v,j] > 1] · 1          (`membrane`)
    spk[v,j]  = [mem'[v,j] > 1]                                          (`spikes`)

  the brackets read as 1 where the comparison holds and 0 elsewhere. The reference computes `h` as one product
  `x · W`; everything after `h` is the same chain of operations in both programs, so it is carried here as one function
  of `h` and never opened.
-/
import proofs.«176882_j77747497992593_1_alg».proof.Proof.RefRead

noncomputable section

namespace Cert.GcnLif

open Cert.ReferenceIdeal Cert.ReferenceIdeal.Gen Cert.ReferenceIdeal.ReadP Idealize.ShloMosaic

variable {F : FTy → Type} [FloatOps F]

/-- The normalised neighbourhood sum plus bias, as a function of the projected features `h`: gather the source rows of
    `h`, scale row `r` by `dinv[src r] · dinv[dst r]`, add the scaled rows up at their target nodes, add the bias to every row. -/
def aggregate (h : (⟨S50000x128, .f32⟩ : BufTy).Contents (Elt F)) (e : (⟨S2x800000, .i32⟩ : BufTy).Contents (Elt F))
    (b : (⟨S128, .f32⟩ : BufTy).Contents (Elt F)) : (⟨S50000x128, .f32⟩ : BufTy).Contents (Elt F) :=
  addf
    (Host.scatterAdd scatter_S50000x128_S850000x1_S850000x128_1_0_0_1 (val_main_v41 (F := F)) (val_main_v42 (F := F) e)
      (mulf (Host.gather gather_S50000x128_S850000x1_S850000x128_1_0_n_n_0_1_1128 h (val_main_v36 (F := F) e))
        (val_main_v39 (F := F) e)))
    (val_main_v45 (F := F) b)

/-- The membrane potential after the step: `0.9 · mem + cur − [mem > 1] · 1`. -/
def membrane (cur mem : (⟨S50000x128, .f32⟩ : BufTy).Contents (Elt F)) : (⟨S50000x128, .f32⟩ : BufTy).Contents (Elt F) :=
  subf (addf (val_main_v51 (F := F) mem) cur) (val_main_v54 (F := F) mem)

/-- The spikes: `[mem' > 1]` of the new membrane potential. -/
def spikes (cur mem : (⟨S50000x128, .f32⟩ : BufTy).Contents (Elt F)) : (⟨S50000x128, .f32⟩ : BufTy).Contents (Elt F) :=
  uitofp (F := F) .f32 (cmpf (F := F) .ogt (membrane cur mem) (val_main_v56 (F := F)))

/-- The reference's input current is `aggregate` of its product `x · W`. -/
theorem ref_current (x0 : (⟨S50000x256, .f32⟩ : BufTy).Contents (Elt F)) (x1 : (⟨S2x800000, .i32⟩ : BufTy).Contents (Elt F))
    (x3 : (⟨S256x128, .f32⟩ : BufTy).Contents (Elt F)) (x4 : (⟨S128, .f32⟩ : BufTy).Contents (Elt F)) :
    val_main_v46 (F := F) x0 x1 x3 x4 = aggregate (val_main_v0 (F := F) x0 x3) x1 x4 := rfl

/-- The reference's second result is `membrane` of that current. -/
theorem ref_membrane (x0 : (⟨S50000x256, .f32⟩ : BufTy).Contents (Elt F)) (x1 : (⟨S2x800000, .i32⟩ : BufTy).Contents (Elt F))
    (x2 : (⟨S50000x128, .f32⟩ : BufTy).Contents (Elt F)) (x3 : (⟨S256x128, .f32⟩ : BufTy).Contents (Elt F))
    (x4 : (⟨S128, .f32⟩ : BufTy).Contents (Elt F)) :
    val_main_v55 (F := F) x0 x1 x2 x3 x4 = membrane (aggregate (val_main_v0 (F := F) x0 x3) x1 x4) x2 := rfl

/-- The reference's first result is `spikes` of it. -/
theorem ref_spikes (x0 : (⟨S50000x256, .f32⟩ : BufTy).Contents (Elt F)) (x1 : (⟨S2x800000, .i32⟩ : BufTy).Contents (Elt F))
    (x2 : (⟨S50000x128, .f32⟩ : BufTy).Contents (Elt F)) (x3 : (⟨S256x128, .f32⟩ : BufTy).Contents (Elt F))
    (x4 : (⟨S128, .f32⟩ : BufTy).Contents (Elt F)) :
    val_main_v58 (F := F) x0 x1 x2 x3 x4 = spikes (aggregate (val_main_v0 (F := F) x0 x3) x1 x4) x2 := rfl

end Cert.GcnLif

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Product.lean ====
/-
  Region 0: the projection `h = x · W`, computed ten row blocks at a time.

  Grid point `t` reads rows `5000 t … 5000 t + 4999` of `x` and all of `W`, rounds both to bf16 (the identity on
  extended reals), and writes `x_block · W` into rows `5000 t … 5000 t + 4999` of `h`. Entry `(p, q)` of that block is
  `Σ_k x[5000 t + p, k] · W[k, q]`, which is entry `(5000 t + p, q)` of the whole product; the ten blocks tile the
  50000 rows, so after the region `h` is the reference's one `dot_general` of the two arguments.
-/
import proofs.«176882_j77747497992593_1_alg».proof.Proof.Gen.KernelIdeal.Frame
import proofs.«176882_j77747497992593_1_alg».proof.Proof.RefRead
import proofs.«176882_j77747497992593_1_alg».proof.Proof.LibRowDims
import Idealize.ShloMosaic.Lib.Pipeline.Value
import Idealize.ShloMosaic.Lib.ValueIdx

set_option maxRecDepth 16384

noncomputable section

open scoped BigOperators

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two operand arrays and the point's blocks of them, at their literal types. -/
abbrev xarr (c : Dev nD) : FVec Ideal S50000x256 .f32 := V c main_arg0
abbrev warr (c : Dev nD) : FVec Ideal S256x128 .f32 := V c main_arg3
abbrev xblk (c : Dev nD) (t : Fin cfg0.N) : FVec Ideal S5000x256 .f32 := iblk0 V c 0 t
abbrev wblk (c : Dev nD) (t : Fin cfg0.N) : FVec Ideal S256x128 .f32 := iblk0 V c 1 t

/-- The whole product, as the reference spells it. -/
abbrev prod (c : Dev nD) : FVec Ideal S50000x128 .f32 :=
  Cert.ReferenceIdeal.ReadP.val_main_v0 (F := Ideal) (xarr V c) (warr V c)

/-- One block's product at an entry: the sum over the contracted coordinate (bf16 rounding is the identity here,
    and the accumulator starts at zero). -/
theorem pay_apply (x0 : FVec Ideal S5000x256 .f32) (x1 : FVec Ideal S256x128 .f32) (p : Fin 5000) (q : Fin 128) :
    k0_pay1 (F := Ideal) x0 x1 (ix2 p q) = ∑ k : Fin 256, x0 (ix2 p k) * x1 (ix2 k q) := by
  unfold k0_pay1
  exact RowDims.matmul_plain_zero_apply none (truncf .bf16 x0 bitsLt_bf16_f32) (truncf .bf16 x1 bitsLt_bf16_f32) p q

/-- The whole product at an entry: the same sum along a row of `x` and a column of `W`. -/
theorem prod_apply (X : FVec Ideal S50000x256 .f32) (Wt : FVec Ideal S256x128 .f32) (a : Fin 50000) (q : Fin 128) :
    Cert.ReferenceIdeal.ReadP.val_main_v0 (F := Ideal) X Wt (ix2 a q) = ∑ k : Fin 256, X (ix2 a k) * Wt (ix2 k q) := by
  unfold Cert.ReferenceIdeal.ReadP.val_main_v0
  exact RowDims.dotGeneral_plain_apply none _ X Wt a q

/-- The block index maps over the grid: `x` and `h` move down one block of rows per point, `W` stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block of `x` is row `5000 t + p` of `x`. -/
theorem xblk_apply (c : Dev nD) (t : Fin cfg0.N) (p : Fin 5000) (k : Fin 256) (a : Fin 50000)
    (ha : a.val = 5000 * t.val + p.val) : xblk V c t (ix2 p k) = xarr V c (ix2 a k) := by
  obtain ⟨e0, e1, -⟩ := idx_facts t
  show V c main_arg0 (((cfg0.win 0).blk t).view.emb (ix2 p k)) = V c main_arg0 (ix2 a k)
  refine congrArg (V c main_arg0) ?_
  funext b; apply Fin.ext
  match b with
  | ⟨0, _⟩ => show win0_0.index t (0 : Fin 2) * 5000 + 1 * p.val = a.val; omega
  | ⟨1, _⟩ => show win0_0.index t (1 : Fin 2) * 256 + 1 * k.val = k.val; omega

/-- Every point's block of `W` is `W`. -/
theorem wblk_apply (c : Dev nD) (t : Fin cfg0.N) (k : Fin 256) (q : Fin 128) :
    wblk V c t (ix2 k q) = warr V c (ix2 k q) := by
  obtain ⟨-, -, e2, e3, -⟩ := idx_facts t
  show V c main_arg3 (((cfg0.win 1).blk t).view.emb (ix2 k q)) = V c main_arg3 (ix2 k q)
  refine congrArg (V c main_arg3) ?_
  funext b; apply Fin.ext
  match b with
  | ⟨0, _⟩ => show win0_1.index t (0 : Fin 2) * 256 + 1 * k.val = k.val; omega
  | ⟨1, _⟩ => show win0_1.index t (1 : Fin 2) * 128 + 1 * q.val = q.val; omega

/-- Entry `(p, q)` of point `t`'s output block sits at `(5000 t + p, q)` of `h`. -/
theorem oblk_emb (t : Fin cfg0.N) (p : Fin 5000) (q : Fin 128) (a : Fin 50000) (ha : a.val = 5000 * t.val + p.val) :
    ((cfg0.win 2).blk t).view.emb (ix2 p q) = (ix2 a q : S50000x128.Idx) := by
  obtain ⟨-, -, -, -, e4, e5⟩ := idx_facts t
  funext b; apply Fin.ext
  match b with
  | ⟨0, _⟩ => show win0_2.index t (0 : Fin 2) * 5000 + 1 * p.val = a.val; omega
  | ⟨1, _⟩ => show win0_2.index t (1 : Fin 2) * 128 + 1 * q.val = q.val; omega

/-- What point `t` writes back is block `t` of the whole product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  funext j
  obtain ⟨p, q, rfl⟩ : ∃ (p : Fin 5000) (q : Fin 128), j = ix2 p q := ⟨j 0, j 1, eq_ix2 j⟩
  have hN : cfg0.N = 10 := N_0
  have ht : t.val < 10 := hN ▸ t.isLt
  have hp : p.val < 5000 := p.isLt
  let a : Fin 50000 := ⟨5000 * t.val + p.val, by omega⟩
  show k0_pay1 (F := Ideal) (xblk V c t) (wblk V c t) (ix2 p q) = prod V c (((cfg0.win 2).blk t).view.emb (ix2 p q))
  refine (pay_apply (xblk V c t) (wblk V c t) p q).trans ?_
  refine Eq.trans ?_ (congrArg (prod V c) (oblk_emb t p q a rfl)).symm
  refine Eq.trans ?_ (prod_apply (xarr V c) (warr V c) a q).symm
  refine Finset.sum_congr rfl fun k _ => ?_
  rw [xblk_apply V c t p k a rfl, wblk_apply V c t k q]

/-- An index of `h` is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` of `h` is written by point `r / 5000`. -/
theorem cover (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  have htv : t.val = (i 0).val / 5000 := rfl
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 the array `h` holds the whole product of the two arguments as the region found them. -/
theorem final (c : Dev nD) : (dat0 V c).arrAt 2 cfg0.N = prod V c :=
  (dat0 V c).arrAt_eq_of_cover 2 (prod V c) (fun t _ => flushed_eq V c t) cover

end Cert.KernelIdeal.Product

end
-- ==== Proof.HostChain.lean ====
/-
  Between the two regions the kernel's program runs the graph-convolution chain on the host: from the projected
  features `h` (region 0's result array), the edge list and the bias to the input current `cur` that region 1 reads.
  It is the reference's own chain of operations after its product, so over any contents the stretches start from,
  `cur` ends at `aggregate` of the three arrays the chain reads, and the membrane potentials, which the chain never
  writes, end as they were.
-/
import proofs.«176882_j77747497992593_1_alg».proof.Proof.Gen.KernelIdeal.Launch
import proofs.«176882_j77747497992593_1_alg».proof.Proof.Spec
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem
open Idealize.ShloMosaic.StableHlo

variable {F : FTy → Type} [FloatOps F]

set_option maxHeartbeats 4000000 in
/-- The input current after the three host stretches, from any contents `Wx` at region 0's exit. -/
theorem current (Wx : Valuation τ sig (Elt F)) :
    after (hostOps1_2 (F := F)) (after (hostOps1_1 (F := F)) (after (hostOps1 (F := F)) Wx)) (Proc.devRef .tc main_v46)
      = Cert.GcnLif.aggregate (F := F) (Wx (Proc.devRef .tc main_v0)) (Wx (Proc.devRef .tc main_arg1)) (Wx (Proc.devRef .tc main_arg4)) := by
  after_results_simp
  rfl

set_option maxHeartbeats 4000000 in
/-- The stretches do not write the membrane potentials. -/
theorem potentials (Wx : Valuation τ sig (Elt F)) :
    after (hostOps1_2 (F := F)) (after (hostOps1_1 (F := F)) (after (hostOps1 (F := F)) Wx)) (Proc.devRef .tc main_arg2)
      = Wx (Proc.devRef .tc main_arg2) := by
  after_results_simp

end Cert.KernelIdeal.HostChain

end
-- ==== Proof.Lif.lean ====
/-
  Region 1: the leaky integrate-and-fire update, ten row blocks at a time.

  Grid point `t` reads rows `5000 t … 5000 t + 4999` of the input current `cur` and of the membrane potentials `mem`
  and writes the same rows of the two results. The body is pointwise: at each entry

    mem' = 0.9 · mem + cur − [mem > 1] · 1,      spk = [mem' > 1],

  the kernel making each bracket by widening the comparison's bit to a word and converting it signed, which is the
  bit converted unsigned (0 or 1). An entry of a block is the same function of the two arrays' entries at the block's
  place in them, and the ten blocks tile the 50000 rows, so after the region the two result arrays are `spikes` and
  `membrane` of the arrays as the region found them.
-/
import proofs.«176882_j77747497992593_1_alg».proof.Proof.Gen.KernelIdeal.Frame
import proofs.«176882_j77747497992593_1_alg».proof.Proof.Spec
import Idealize.ShloMosaic.Lib.Pipeline.Value
import Idealize.ShloMosaic.Lib.ValueIdx
import Idealize.ShloMosaic.Lib.KernelVsHost

set_option maxRecDepth 16384

noncomputable section

namespace Cert.KernelIdeal.Lif

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays the region reads and the point's blocks of them, at their literal types. -/
abbrev curarr (c : Dev nD) : FVec Ideal S50000x128 .f32 := V c main_v46
abbrev memarr (c : Dev nD) : FVec Ideal S50000x128 .f32 := V c main_arg2
abbrev curblk (c : Dev nD) (t : Fin cfg1.N) : FVec Ideal S5000x128 .f32 := iblk1 V c 0 t
abbrev memblk (c : Dev nD) (t : Fin cfg1.N) : FVec Ideal S5000x128 .f32 := iblk1 V c 1 t

/-- The body's new membrane potential, with the comparison's bit converted unsigned. -/
theorem pay_mem_eq (mb cb : FVec Ideal S5000x128 .f32) :
    k1_pay1 (F := Ideal) mb cb
      = subf (addf (mulf (broadcast S5000x128 (Scalar.ofBits (F := Ideal) .f32 0x3F666666#32)) mb) cb)
          (mulf (uitofp (F := Ideal) .f32 (cmpf (F := Ideal) .ogt mb (broadcast S5000x128 (Scalar.ofBits (F := Ideal) .f32 0x3F800000#32))))
            (broadcast S5000x128 (Scalar.ofBits (F := Ideal) .f32 0x3F800000#32))) := by
  unfold k1_pay1
  dsimp only
  rw [shapeCast_self, sitofp_extui_eq_uitofp]

/-- At an entry it is `membrane` of the arrays' entries there. -/
theorem pay_mem_apply (mb cb : FVec Ideal S5000x128 .f32) (MEM CUR : FVec Ideal S50000x128 .f32)
    (j : S5000x128.Idx) (i : S50000x128.Idx) (hm : mb j = MEM i) (hc : cb j = CUR i) :
    k1_pay1 (F := Ideal) mb cb j = Cert.GcnLif.membrane (F := Ideal) CUR MEM i := by
  rw [pay_mem_eq]
  show FloatOps.subf (FloatOps.addf (FloatOps.mulf _ (mb j)) (cb j))
      (FloatOps.mulf (FloatOps.uitofp (F := Ideal) .f32 (FloatOps.cmpf (F := Ideal) .ogt (mb j) _)) _) = _
  rw [hm, hc]
  rfl

/-- The body's spikes, with the comparison's bit converted unsigned. -/
theorem pay_spk_eq (mb cb : FVec Ideal S5000x128 .f32) :
    k1_pay2 (F := Ideal) mb cb
      = uitofp (F := Ideal) .f32 (cmpf (F := Ideal) .ogt (k1_pay1 (F := Ideal) mb cb)
          (broadcast S5000x128 (Scalar.ofBits (F := Ideal) .f32 0x3F800000#32))) := by
  unfold k1_pay2
  dsimp only
  rw [sitofp_extui_eq_uitofp]

/-- At an entry they are `spikes` of the arrays' entries there. -/
theorem pay_spk_apply (mb cb : FVec Ideal S5000x128 .f32) (MEM CUR : FVec Ideal S50000x128 .f32)
    (j : S5000x128.Idx) (i : S50000x128.Idx) (hm : mb j = MEM i) (hc : cb j = CUR i) :
    k1_pay2 (F := Ideal) mb cb j = Cert.GcnLif.spikes (F := Ideal) CUR MEM i := by
  rw [pay_spk_eq]
  show FloatOps.uitofp (F := Ideal) .f32 (FloatOps.cmpf (F := Ideal) .ogt (k1_pay1 (F := Ideal) mb cb j) _) = _
  rw [pay_mem_apply mb cb MEM CUR j i hm hc]
  rfl

/-- The block index maps over the grid: all four windows move down one block of rows per point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry `j` of point `t`'s block sits at row `5000 t + j₀`, column `j₁` of its array — for each of the four windows. -/
theorem emb0 (t : Fin cfg1.N) (j : S5000x128.Idx) (i : S50000x128.Idx)
    (h0 : (i 0).val = 5000 * t.val + (j 0).val) (h1 : (i 1).val = (j 1).val) : ((cfg1.win 0).blk t).view.emb j = i := by
  obtain ⟨e0, e1, -⟩ := idx_facts t
  funext b; apply Fin.ext
  match b with
  | ⟨0, _⟩ => show win1_0.index t (0 : Fin 2) * 5000 + 1 * (j 0).val = (i 0).val; omega
  | ⟨1, _⟩ => show win1_0.index t (1 : Fin 2) * 128 + 1 * (j 1).val = (i 1).val; omega
theorem emb1 (t : Fin cfg1.N) (j : S5000x128.Idx) (i : S50000x128.Idx)
    (h0 : (i 0).val = 5000 * t.val + (j 0).val) (h1 : (i 1).val = (j 1).val) : ((cfg1.win 1).blk t).view.emb j = i := by
  obtain ⟨-, -, e0, e1, -⟩ := idx_facts t
  funext b; apply Fin.ext
  match b with
  | ⟨0, _⟩ => show win1_1.index t (0 : Fin 2) * 5000 + 1 * (j 0).val = (i 0).val; omega
  | ⟨1, _⟩ => show win1_1.index t (1 : Fin 2) * 128 + 1 * (j 1).val = (i 1).val; omega
theorem emb2 (t : Fin cfg1.N) (j : S5000x128.Idx) (i : S50000x128.Idx)
    (h0 : (i 0).val = 5000 * t.val + (j 0).val) (h1 : (i 1).val = (j 1).val) : ((cfg1.win 2).blk t).view.emb j = i := by
  obtain ⟨-, -, -, -, e0, e1, -⟩ := idx_facts t
  funext b; apply Fin.ext
  match b with
  | ⟨0, _⟩ => show win1_2.index t (0 : Fin 2) * 5000 + 1 * (j 0).val = (i 0).val; omega
  | ⟨1, _⟩ => show win1_2.index t (1 : Fin 2) * 128 + 1 * (j 1).val = (i 1).val; omega
theorem emb3 (t : Fin cfg1.N) (j : S5000x128.Idx) (i : S50000x128.Idx)
    (h0 : (i 0).val = 5000 * t.val + (j 0).val) (h1 : (i 1).val = (j 1).val) : ((cfg1.win 3).blk t).view.emb j = i := by
  obtain ⟨-, -, -, -, -, -, e0, e1⟩ := idx_facts t
  funext b; apply Fin.ext
  match b with
  | ⟨0, _⟩ => show win1_3.index t (0 : Fin 2) * 5000 + 1 * (j 0).val = (i 0).val; omega
  | ⟨1, _⟩ => show win1_3.index t (1 : Fin 2) * 128 + 1 * (j 1).val = (i 1).val; omega

/-- The array index of entry `j` of point `t`'s blocks. -/
def place (t : Fin cfg1.N) (j : S5000x128.Idx) : S50000x128.Idx :=
  ix2 (⟨5000 * t.val + (j 0).val, by
    have hN : cfg1.N = 10 := N_1
    have ht : t.val < 10 := hN ▸ t.isLt
    have hj : (j 0).val < 5000 := (j 0).isLt
    omega⟩ : Fin 50000) (⟨(j 1).val, (j 1).isLt⟩ : Fin 128)

theorem place_0 (t : Fin cfg1.N) (j : S5000x128.Idx) : (place t j 0).val = 5000 * t.val + (j 0).val := rfl
theorem place_1 (t : Fin cfg1.N) (j : S5000x128.Idx) : (place t j 1).val = (j 1).val := rfl

/-- The point's blocks of the two arrays, entry by entry. -/
theorem curblk_apply (c : Dev nD) (t : Fin cfg1.N) (j : S5000x128.Idx) : curblk V c t j = curarr V c (place t j) := by
  show V c main_v46 (((cfg1.win 0).blk t).view.emb j) = V c main_v46 (place t j)
  exact congrArg (V c main_v46) (emb0 t j (place t j) (place_0 t j) (place_1 t j))
theorem memblk_apply (c : Dev nD) (t : Fin cfg1.N) (j : S5000x128.Idx) : memblk V c t j = memarr V c (place t j) := by
  show V c main_arg2 (((cfg1.win 1).blk t).view.emb j) = V c main_arg2 (place t j)
  exact congrArg (V c main_arg2) (emb1 t j (place t j) (place_0 t j) (place_1 t j))

/-- The two whole-array results. -/
abbrev spkarr (c : Dev nD) : FVec Ideal S50000x128 .f32 := Cert.GcnLif.spikes (F := Ideal) (curarr V c) (memarr V c)
abbrev newmem (c : Dev nD) : FVec Ideal S50000x128 .f32 := Cert.GcnLif.membrane (F := Ideal) (curarr V c) (memarr V c)

/-- What point `t` writes back to the spikes' array is block `t` of `spikes`. -/
theorem flushed2_eq (c : Dev nD) (t : Fin cfg1.N) :
    (dat1 V c).flushed 2 t = ((cfg1.win 2).blk t).view.read (Elt Ideal) (spkarr V c) := by
  show (cfg1.win 2).cut (grid1.coords t) ((dat1 V c).after 2 t) = _
  rw [after1_2]
  unfold out1_2
  rw [View.canon_unit_zero hz]
  simp only [View.ld_unit_zero (S := S5000x128) hz]
  funext j
  show k1_pay2 (F := Ideal) (memblk V c t) (curblk V c t) j = spkarr V c (((cfg1.win 2).blk t).view.emb j)
  refine Eq.trans ?_ (congrArg (spkarr V c) (emb2 t j (place t j) (place_0 t j) (place_1 t j))).symm
  exact pay_spk_apply (memblk V c t) (curblk V c t) (memarr V c) (curarr V c) j (place t j) (memblk_apply V c t j) (curblk_apply V c t j)

/-- What point `t` writes back to the new potentials' array is block `t` of `membrane`. -/
theorem flushed3_eq (c : Dev nD) (t : Fin cfg1.N) :
    (dat1 V c).flushed 3 t = ((cfg1.win 3).blk t).view.read (Elt Ideal) (newmem V c) := by
  show (cfg1.win 3).cut (grid1.coords t) ((dat1 V c).after 3 t) = _
  rw [after1_3]
  unfold out1_3
  rw [View.canon_unit_zero hz]
  simp only [View.ld_unit_zero (S := S5000x128) hz]
  funext j
  show k1_pay1 (F := Ideal) (memblk V c t) (curblk V c t) j = newmem V c (((cfg1.win 3).blk t).view.emb j)
  refine Eq.trans ?_ (congrArg (newmem V c) (emb3 t j (place t j) (place_0 t j) (place_1 t j))).symm
  exact pay_mem_apply (memblk V c t) (curblk V c t) (memarr V c) (curarr V c) j (place t j) (memblk_apply V c t j) (curblk_apply V c t j)

/-- An index of a result array is in point `t`'s block iff each coordinate is in the block's range on its axis. -/
theorem mem_blk2 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47_0).slice (win1_2.rect t)).set ↔ _
  rw [View.set_slice_whole, Rect.mem_set_unit]
  exact Iff.rfl
theorem mem_blk3 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47_1).slice (win1_3.rect t)).set ↔ _
  rw [View.set_slice_whole, Rect.mem_set_unit]
  exact Iff.rfl

/-- Row `r` of either result is written by point `r / 5000`. -/
theorem cover2 (i : S50000x128.Idx) : ∃ t : Fin cfg1.N, (cfg1.win 2).flush t = true ∧ i ∈ ((cfg1.win 2).blk t).view.set := by
  have hN : cfg1.N = 10 := N_1
  have hi0 : (i 0).val < 50000 := (i 0).isLt
  have hi1 : (i 1).val < 128 := (i 1).isLt
  let t : Fin cfg1.N := ⟨(i 0).val / 5000, by rw [hN]; omega⟩
  have htv : t.val = (i 0).val / 5000 := rfl
  obtain ⟨-, -, -, -, e0, e1, -⟩ := idx_facts t
  refine ⟨t, flush1_2 t, ?_⟩
  rw [mem_blk2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega
theorem cover3 (i : S50000x128.Idx) : ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  let t : Fin cfg1.N := ⟨(i 0).val / 5000, by rw [hN]; omega⟩
  have htv : t.val = (i 0).val / 5000 := rfl
  obtain ⟨-, -, -, -, -, -, e0, e1⟩ := idx_facts t
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After region 1 the first result array holds `spikes`, the second `membrane`, of the two arrays as the region found them. -/
theorem final2 (c : Dev nD) : (dat1 V c).arrAt 2 cfg1.N = spkarr V c :=
  (dat1 V c).arrAt_eq_of_cover 2 (spkarr V c) (fun t _ => flushed2_eq V c t) cover2
theorem final3 (c : Dev nD) : (dat1 V c).arrAt 3 cfg1.N = newmem V c :=
  (dat1 V c).arrAt_eq_of_cover 3 (newmem V c) (fun t _ => flushed3_eq V c t) cover3

end Cert.KernelIdeal.Lif

end
-- ==== Proof.KernelValue.lean ====
/-
  The kernel's program from launch to return, as values.

  Region 0 leaves `h = x · W` (the reference's one product of the two arguments); the host stretches leave the input
  current `cur = aggregate h edges bias` and do not touch the membrane potentials; region 1 leaves `spikes cur mem` and
  `membrane cur mem` in the two result arrays. So the run ends with both results at those functions of the launch
  memory's argument arrays, and the arguments unchanged.
-/
import proofs.«176882_j77747497992593_1_alg».proof.Proof.KRun
import proofs.«176882_j77747497992593_1_alg».proof.Proof.Product
import proofs.«176882_j77747497992593_1_alg».proof.Proof.HostChain
import proofs.«176882_j77747497992593_1_alg».proof.Proof.Lif

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The projected features, the input current and the two results, as functions of the launch memory. -/
abbrev feat (c : Dev nD) : FVec Ideal S50000x128 .f32 :=
  Cert.ReferenceIdeal.ReadP.val_main_v0 (F := Ideal) (m ((c.tc : Thread nD τ).loc main_arg0)) (m ((c.tc : Thread nD τ).loc main_arg3))
abbrev cur (c : Dev nD) : FVec Ideal S50000x128 .f32 :=
  Cert.GcnLif.aggregate (F := Ideal) (feat m c) (m ((c.tc : Thread nD τ).loc main_arg1)) (m ((c.tc : Thread nD τ).loc main_arg4))
abbrev spk (c : Dev nD) : FVec Ideal S50000x128 .f32 :=
  Cert.GcnLif.spikes (F := Ideal) (cur m c) (m ((c.tc : Thread nD τ).loc main_arg2))
abbrev mem' (c : Dev nD) : FVec Ideal S50000x128 .f32 :=
  Cert.GcnLif.membrane (F := Ideal) (cur m c) (m ((c.tc : Thread nD τ).loc main_arg2))

/-- After region 0 the array `h` holds the product of the two arguments. -/
theorem feat_eq (c : Dev nD) : W1 m ρ c (Proc.devRef .tc main_v0) = feat m c :=
  (W1_arr m ρ c 2).trans (Cert.KernelIdeal.Product.final (V0 m ρ) c)

/-- At region 1's entry the input current is `aggregate` of that product, the edges and the bias. -/
theorem cur_eq (c : Dev nD) : V4 m ρ c main_v46 = cur m c := by
  have e1 : W1 m ρ c (Proc.devRef .tc main_arg1) = m ((c.tc : Thread nD τ).loc main_arg1) := W1_of_ne m ρ c main_arg1 (by decide)
  have e4 : W1 m ρ c (Proc.devRef .tc main_arg4) = m ((c.tc : Thread nD τ).loc main_arg4) := W1_of_ne m ρ c main_arg4 (by decide)
  show StableHlo.after (hostOps1_2 (F := Ideal)) (StableHlo.after (hostOps1_1 (F := Ideal)) (StableHlo.after (hostOps1 (F := Ideal)) (W1 m ρ c))) (Proc.devRef .tc main_v46) = _
  rw [Cert.KernelIdeal.HostChain.current (W1 m ρ c), feat_eq m ρ c, e1, e4]

/-- and the membrane potentials are the launch memory's. -/
theorem mem_eq (c : Dev nD) : V4 m ρ c main_arg2 = m ((c.tc : Thread nD τ).loc main_arg2) := by
  show StableHlo.after (hostOps1_2 (F := Ideal)) (StableHlo.after (hostOps1_1 (F := Ideal)) (StableHlo.after (hostOps1 (F := Ideal)) (W1 m ρ c))) (Proc.devRef .tc main_arg2) = _
  rw [Cert.KernelIdeal.HostChain.potentials (W1 m ρ c)]
  exact W1_of_ne m ρ c main_arg2 (by decide)

/-- The two result arrays after region 1. -/
theorem spk_eq (c : Dev nD) : W5 m ρ c (Proc.devRef .tc main_v47_0) = spk m c := by
  refine (W5_arr m ρ c 2).trans ((Cert.KernelIdeal.Lif.final2 (V4 m ρ) c).trans ?_)
  show Cert.GcnLif.spikes (F := Ideal) (V4 m ρ c main_v46) (V4 m ρ c main_arg2) = _
  rw [cur_eq m ρ c, mem_eq m ρ c]
theorem mem'_eq (c : Dev nD) : W5 m ρ c (Proc.devRef .tc main_v47_1) = mem' m c := by
  refine (W5_arr m ρ c 3).trans ((Cert.KernelIdeal.Lif.final3 (V4 m ρ) c).trans ?_)
  show Cert.GcnLif.membrane (F := Ideal) (V4 m ρ c main_v46) (V4 m ρ c main_arg2) = _
  rw [cur_eq m ρ c, mem_eq m ρ c]

/-- The run, read: both results at their functions of the arguments, the arguments unchanged. -/
theorem run : θ_run defs (onTc (τ := τ) (main (F := Ideal))) ⟨m, fun _ => 0, ρ⟩ (fun r => ∀ c : Dev nD,
      r.2.mem ((c.tc : Thread nD τ).loc main_v47_0) = spk m c
      ∧ r.2.mem ((c.tc : Thread nD τ).loc main_v47_1) = mem' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (spk_eq m ρ c), (h c).2.1.trans (mem'_eq m ρ c), (h c).2.2⟩)
    (Cert.KernelIdeal.GenRun.run (F := Ideal) m ρ)

end Cert.KernelIdeal.Result

end
-- ==== Proof.lean ====
/-
  A graph-convolution layer followed by a leaky integrate-and-fire update, against its reference, over the
  extended reals.

  The kernel's program computes the projection `h = x · W` in one kernel region (ten blocks of 5000 rows, the operands
  rounded to bf16, which changes nothing here), the normalised neighbourhood sum `cur = D^(-1/2) (A + I) D^(-1/2) h + b`
  on the host, and the update `mem' = 0.9 · mem + cur − [mem > 1]`, `spk = [mem' > 1]` in a second region. The reference
  computes `h` as one product and everything else on the host. The two agree because
    * a block of the product is the product of the block (the contraction runs along a row of `x`), and a product
      into a zero accumulator is the plain sum;
    * after `h` the two programs apply one and the same chain of host operations, carried as a function of `h`;
    * the update is pointwise, and the kernel's comparison bit widened and converted signed is the bit converted
      unsigned.
  None of these steps moves a factor across a sum, so no entry need be finite: the precondition is not opened.

  The frames of the two kernel programs are the generated ones; the reference's is its run with the results dropped.
  No ideal-pass rewrite was applied, so `preserves` asks nothing.
-/
import proofs.«176882_j77747497992593_1_alg».proof.Defs
import proofs.«176882_j77747497992593_1_alg».proof.Proof.Gen.Kernel
import proofs.«176882_j77747497992593_1_alg».proof.Proof.Gen.Kernel.Frame
import proofs.«176882_j77747497992593_1_alg».proof.Proof.Gen.KernelIdeal
import proofs.«176882_j77747497992593_1_alg».proof.Proof.Gen.KernelIdeal.Frame
import proofs.«176882_j77747497992593_1_alg».proof.Proof.Gen.ReferenceIdeal
import proofs.«176882_j77747497992593_1_alg».proof.Proof.Gen.Pre_finite_inputs
import proofs.«176882_j77747497992593_1_alg».proof.Proof.RefRun
import proofs.«176882_j77747497992593_1_alg».proof.Proof.RefRead
import proofs.«176882_j77747497992593_1_alg».proof.Proof.Spec
import proofs.«176882_j77747497992593_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the spikes and the new membrane potentials at `spikes` and `membrane` of the input current
    `aggregate (x · W) edges bias` and the old potentials: the kernel's by its run read region by region, the
    reference's by its run read stage by stage, the arguments agreeing. -/
theorem algebraic : Cert.algebraic_KernelIdeal_ReferenceIdeal := by
  intro m ρ m' ρ' _ hagree
  refine ⟨fun c => Cert.KernelIdeal.Result.spk m c, fun c => Cert.KernelIdeal.Result.mem' m c,
    Cert.KernelIdeal.Result.run m ρ, ?_⟩
  refine (θ_run Cert.ReferenceIdeal.defs _ _).mono (fun _ h c => ?_) (Cert.ReferenceIdeal.ValueP.run (F := Ideal) m' ρ')
  obtain ⟨h0, h1, hargs⟩ := h c
  obtain ⟨a0, a1, a2, a3, a4⟩ := hagree c
  refine ⟨h0.trans ?_, h1.trans ?_, hargs⟩
  · rw [Cert.ReferenceIdeal.ReadP.val_main_v58_eq, Cert.GcnLif.ref_spikes, a0, a1, a2, a3, a4]
  · rw [Cert.ReferenceIdeal.ReadP.val_main_v55_eq, Cert.GcnLif.ref_membrane, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
